-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S16384x1024 .f32) (main_arg1 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  main_v8
-- ==== Kernel.lean ====
abbrev S16384x1024 : Shape := ⟨2, ![16384, 1024]⟩
abbrev S1000x1024 : Shape := ⟨2, ![1000, 1024]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S16384x1000 : Shape := ⟨2, ![16384, 1000]⟩
abbrev S1024x1024 : Shape := ⟨2, ![1024, 1024]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1000x1024, .f32⟩
  | .hbm, ⟨3, _⟩ => ⟨S_, .f32⟩
  | .hbm, ⟨4, _⟩ => ⟨S1000, .f32⟩
  | .hbm, ⟨5, _⟩ => ⟨S1000x1, .f32⟩
  | .hbm, ⟨6, _⟩ => ⟨S1x1000, .f32⟩
  | .hbm, ⟨7, _⟩ => ⟨S16384x1000, .f32⟩
  | .local _ .vmem, ⟨0, _⟩ => ⟨S1024x1024, .f32⟩
  | .local _ .vmem, ⟨1, _⟩ => ⟨S1024x1024, .f32⟩
  | .local _ .vmem, ⟨2, _⟩ => ⟨S1000x1024, .f32⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x1024_S1000_d1 : S1000x1024.ReducesTo [1] S1000
  h_S_ : 0 < S_.numel
  bcast_S1000_S1000x1_0 : S1000.BroadcastsInDim S1000x1 (![0] : Fin 1 → Fin S1000x1.rank)
  transposes_S1000x1_S1x1000_1_0 : S1000x1.Transposes [1, 0] S1x1000
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x1024_S1000x1024_S1024x1000_1_1_0_0_n_n_wf : DotDims.WF S1024x1024 S1000x1024 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x1024.size a
  hwx0_1 : ∀ i : grid0.Coords, EltTy.bits .f32 = 32 ∨ (Rect.block (s := S1000x1024) S1000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)

variable [Facts₀]

def dot_S1024x1024_S1000x1024_S1024x1000_1_1_0_0_n_n : DotDims S1024x1024 S1000x1024 S1024x1000 where
  lhsContracting := [1]
  rhsContracting := [1]
  lhsNonContracting := [0]
  rhsNonContracting := [0]
  lhsBatch := []
  rhsBatch := []
  wf := dot_S1024x1024_S1000x1024_S1024x1000_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S1024x1000 : Shape := ⟨2, ![1024, 1000]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x1024, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S1024x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x1024_S1024x1000_1_0 : S1000x1024.Transposes [1, 0] S1024x1000
  bcast_S_S16384x1000 : S_.BroadcastsInDim S16384x1000 (![] : Fin 0 → Fin S16384x1000.rank)
  dot_S16384x1024_S1024x1000_S16384x1000_1_0_0_1_n_n_wf : DotDims.WF S16384x1024 S1024x1000 S16384x1000 [1] [0] [0] [1] [] []

variable [Facts₀]

def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf

class Facts : Prop extends Facts₀ where

variable [Facts]
-- ==== Proof.Spec.lean ====
/-
  The squared Euclidean distance between every row of a point array and every row of a centre array, clipped at
  zero, written by the expansion ‖x‖² + ‖c‖² − 2·⟨x, c⟩ over the extended reals: the function both programs compute.
  Each of the three terms is a sum over the 1024 feature coordinates; the sums are kept as `Finset` sums, so no
  order of addition is fixed, and the two literals (the factor two and the clipping floor) are kept as the float
  words the programs carry, the same word on both sides.
-/
import Idealize.ShloMosaic.PureOps.Ideal
import Idealize.ShloMosaic.PureOps.Ideal.Laws
import Idealize.ShloMosaic.Lib.ValueIdx

noncomputable section

namespace Cert.SqDist

open Idealize.ShloMosaic Idealize.ShloMosaic.ValueIdx

/-- The squared norm of row `r` of an `[n, 1024]` array: the sum of the squares of its 1024 entries. -/
def rowSq {n : ℕ} (x : (⟨2, ![n, 1024]⟩ : Shape).Idx → EReal) (r : Fin n) : EReal :=
  ∑ k : Fin 1024, x (ix2 r k) * x (ix2 r k)

/-- The inner product of row `r` of one array with row `j` of another, both of width 1024. -/
def rowDot {n n' : ℕ} (x : (⟨2, ![n, 1024]⟩ : Shape).Idx → EReal) (c : (⟨2, ![n', 1024]⟩ : Shape).Idx → EReal)
    (r : Fin n) (j : Fin n') : EReal :=
  ∑ k : Fin 1024, x (ix2 r k) * c (ix2 j k)

/-- One entry of the result from its three sums: `max ((sx + sc) − 2·d) 0`, the two and the zero as their float words. -/
def clipped (sx sc d : EReal) : EReal :=
  max ((sx + sc) - Ideal.ofBits .f32 0x40000000#32 * d) (Ideal.ofBits .f32 0x00000000#32)

/-- The whole result: entry `(r, j)` is the clipped expansion for point `r` and centre `j`. -/
def sqDist (x : (⟨2, ![16384, 1024]⟩ : Shape).Idx → EReal) (c : (⟨2, ![1000, 1024]⟩ : Shape).Idx → EReal) :
    (⟨2, ![16384, 1000]⟩ : Shape).Idx → EReal :=
  fun i => clipped (rowSq x (i 0)) (rowSq c (i 1)) (rowDot x c (i 0) (i 1))

theorem sqDist_apply (x : (⟨2, ![16384, 1024]⟩ : Shape).Idx → EReal) (c : (⟨2, ![1000, 1024]⟩ : Shape).Idx → EReal)
    (r : Fin 16384) (j : Fin 1000) :
    sqDist x c (ix2 r j) = clipped (rowSq x r) (rowSq c j) (rowDot x c r j) := rfl

/-- A host sum started from the zero word is the plain sum: the zero word is the real zero, neutral for addition on
    every extended real. -/
theorem zero_word_add (s : EReal) : Ideal.ofBits .f32 0x00000000#32 + s = s := by
  rw [Ideal.ofBits_zero_f32, zero_add]

end Cert.SqDist

end
-- ==== Proof.RefIsSpec.lean ====
/-
  The reference program computes the clipped expansion ‖x‖² + ‖c‖² − 2·⟨x, c⟩ of the squared distance: read one
  operation at a time, its result at entry (r, j) is the maximum with zero of
  (0 + Σₖ x[r,k]²) + (0 + Σₖ c[j,k]²) − 2 · Σₖ x[r,k]·cᵀ[k,j],
  the two row sums broadcast along the other axis and the matrix product taken against the transposed centres.
  The composed index maps of the broadcasts and of the transpose pick out row r of the points and row j of the
  centres; each host sum starts from the zero word, which is neutral.
-/
import proofs.«151165_j22376779612174_1_alg».proof.Proof.Gen.ReferenceIdeal.Read
import proofs.«151165_j22376779612174_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SqDist

/-- Through the two broadcasts, the squared-norm column of the points is read at row `i 0`. -/
theorem pointRow (i : S16384x1000.Idx) (k : Fin 1024) :
    idx_main_v1 (idx_main_v2 (idx_main_v6 i)) k = ix2 (i 0) k :=
  funext fun a => Fin.ext (by match a with | ⟨0, _⟩ => rfl | ⟨1, _⟩ => rfl)

/-- Through the two broadcasts, the squared-norm row of the centres is read at row `i 1` of the centres. -/
theorem centreRow (i : S16384x1000.Idx) (k : Fin 1024) :
    idx_main_v4 (idx_main_v5 (idx_main_v7 i)) k = ix2 (i 1) k :=
  funext fun a => Fin.ext (by match a with | ⟨0, _⟩ => rfl | ⟨1, _⟩ => rfl)

/-- The product's left factor is the point's entry `(i 0, k)`. -/
theorem prodLeft (i : S16384x1000.Idx) (k : Fin 1024) : lidx_main_v10 i k = ix2 (i 0) k :=
  funext fun a => Fin.ext (by match a with | ⟨0, _⟩ => rfl | ⟨1, _⟩ => rfl)

/-- The product's right factor, read through the transpose, is the centre's entry `(i 1, k)`. -/
theorem prodRight (i : S16384x1000.Idx) (k : Fin 1024) : idx_main_v9 (ridx_main_v10 i k) = ix2 (i 1) k :=
  funext fun a => Fin.ext (by match a with | ⟨0, _⟩ => rfl | ⟨1, _⟩ => rfl)

/-- The reference's last stage is the clipped expansion, entry by entry. -/
theorem ref_is_sqDist (x0 : (⟨S16384x1024, .f32⟩ : BufTy).Contents (Elt Ideal))
    (x1 : (⟨S1000x1024, .f32⟩ : BufTy).Contents (Elt Ideal)) :
    val_main_v15 (F := Ideal) x0 x1 = sqDist x0 x1 := by
  funext i
  rw [val_main_v15_apply, val_main_v13_apply, val_main_v8_apply, val_main_v6_apply, val_main_v2_apply,
    val_main_v1_apply, val_main_v7_apply, val_main_v5_apply, val_main_v4_apply, val_main_v12_apply,
    val_main_v11_apply, val_main_cst_1_apply, val_main_v10_apply, val_main_v14_apply, val_main_cst_2_apply,
    val_main_cst_apply, val_main_cst_0_apply]
  simp only [val_main_v0_apply, val_main_v3_apply, val_main_v9_apply, pointRow, centreRow, prodLeft, prodRight]
  show max ((Ideal.ofBits .f32 0x00000000#32 + rowSq x0 (i 0) + (Ideal.ofBits .f32 0x00000000#32 + rowSq x1 (i 1)))
      - Ideal.ofBits .f32 0x40000000#32 * rowDot x0 x1 (i 0) (i 1)) (Ideal.ofBits .f32 0x00000000#32) = _
  rw [zero_word_add, zero_word_add]
  rfl

end Cert.ReferenceIdeal.RefValue

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What the kernel body stores, entry by entry. From a block of 1024 points `x`, the whole centre array `c` and the
  row `n` of the centres' squared norms, the body forms: the squared norm of each point (a sum along the lanes, kept
  as a column and spread along the 1000 centres), the row `n` spread down the 1024 points, the product of the points
  with the centres contracted over the feature axis of both (the narrowing of both operands to sixteen bits is the
  identity on extended reals, and the product accumulates into zero), and stores
  `max ((‖x_p‖² + n_q) − 2·⟨x_p, c_q⟩) 0` at `(p, q)`.
-/
import proofs.«151165_j22376779612174_1_alg».proof.Proof.Gen.KernelIdeal.Skeleton
import proofs.«151165_j22376779612174_1_alg».proof.Proof.Spec
import proofs.«151165_j22376779612174_1_alg».proof.Proof.LibKeepdims
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx Cert.SqDist

/-! ## The squared norms of the points, as a column spread along the centres -/

/-- The lane sum of the squares at row `p`, kept as a column and broadcast to `(p, q)`, is the squared norm of row `p`. -/
theorem sqNormCol_apply (x0 : FVec Ideal S1024x1024 .f32) (p : Fin 1024) (q : Fin 1000) :
    broadcastTo S1024x1000
        (shapeCast S1024x1
          (multiReduction .add [1] S1024 (mulf x0 x0) 0x00000000#32 reduces_S1024x1024_S1024 (.inl rfl) rfl)
          shapeCasts_S1024_S1024x1)
        broadcasts_S1024x1_S1024x1000 (ix2 p q)
      = rowSq x0 p := by
  refine (Cert.LibKeepdims.broadcastTo_a1_ab_apply _ broadcasts_S1024x1_S1024x1000 p q).trans ?_
  refine (Cert.LibKeepdims.shapeCast_a_a1_apply _ shapeCasts_S1024_S1024x1 p (0 : Fin 1)).trans ?_
  refine (Ideal.multiReduction_add_single (mulf x0 x0) 0x00000000#32 reduces_S1024x1024_S1024 (.inl rfl) rfl (ix1 p)).trans ?_
  unfold rowSq
  refine Finset.sum_congr rfl fun k _ => ?_
  have e : reduces_S1024x1024_S1024.lift (ix1 p) k = ix2 p k :=
    funext fun a => Fin.ext (by match a with | ⟨0, _⟩ => rfl | ⟨1, _⟩ => rfl)
  rw [e]
  rfl

/-! ## The centres' squared norms, as a row spread down the points -/

/-- The loaded row, cast to its own shape and broadcast to `(p, q)`, is its entry `q`. -/
theorem normRow_apply (x2 : FVec Ideal S1x1000 .f32) (p : Fin 1024) (q : Fin 1000) :
    broadcastTo S1024x1000 (shapeCast S1x1000 x2 shapeCasts_S1x1000_S1x1000) broadcasts_S1x1000_S1024x1000 (ix2 p q)
      = x2 (ix2 (0 : Fin 1) q) :=
  (broadcastTo_1b_ab_apply _ broadcasts_S1x1000_S1024x1000 p q).trans
    (congrFun (shapeCast_self x2 shapeCasts_S1x1000_S1x1000) _)

/-! ## The product of the points with the centres, contracted over the feature axis of both -/

theorem lhs_axis0 (i : S1024x1000.Idx) (r : dot_S1024x1024_S1000x1024_S1024x1000_1_1_0_0_n_n.contr.Idx) :
    (dot_S1024x1024_S1000x1024_S1024x1000_1_1_0_0_n_n.lhsIdx i r 0).val = (i 0).val := by
  unfold DotDims.lhsIdx
  rw [dif_neg (show ¬(0 : Fin S1024x1024.rank) ∈ dot_S1024x1024_S1000x1024_S1024x1000_1_1_0_0_n_n.lhsBatch by decide), dif_pos (show (0 : Fin S1024x1024.rank) ∈ dot_S1024x1024_S1000x1024_S1024x1000_1_1_0_0_n_n.lhsNonContracting by decide)]
  rfl
theorem lhs_axis1 (i : S1024x1000.Idx) (r : dot_S1024x1024_S1000x1024_S1024x1000_1_1_0_0_n_n.contr.Idx) :
    (dot_S1024x1024_S1000x1024_S1024x1000_1_1_0_0_n_n.lhsIdx i r 1).val = (r ⟨0, by decide⟩).val :=
  dot_S1024x1024_S1000x1024_S1024x1000_1_1_0_0_n_n.lhsIdx_val_of_single rfl i r
theorem rhs_axis0 (i : S1024x1000.Idx) (r : dot_S1024x1024_S1000x1024_S1024x1000_1_1_0_0_n_n.contr.Idx) :
    (dot_S1024x1024_S1000x1024_S1024x1000_1_1_0_0_n_n.rhsIdx i r 0).val = (i 1).val := by
  unfold DotDims.rhsIdx
  rw [dif_neg (show ¬(0 : Fin S1000x1024.rank) ∈ dot_S1024x1024_S1000x1024_S1024x1000_1_1_0_0_n_n.rhsBatch by decide), dif_pos (show (0 : Fin S1000x1024.rank) ∈ dot_S1024x1024_S1000x1024_S1024x1000_1_1_0_0_n_n.rhsNonContracting by decide)]
  rfl
theorem rhs_axis1 (i : S1024x1000.Idx) (r : dot_S1024x1024_S1000x1024_S1024x1000_1_1_0_0_n_n.contr.Idx) :
    (dot_S1024x1024_S1000x1024_S1024x1000_1_1_0_0_n_n.rhsIdx i r 1).val = (r ⟨0, by decide⟩).val :=
  dot_S1024x1024_S1000x1024_S1024x1000_1_1_0_0_n_n.rhsIdx_val_of_single rfl i r

/-- The matrix product into the zero accumulator, at `(p, q)`, is the inner product of point `p` with centre `q`:
    the contraction index is the feature coordinate on both sides, and the narrowing to sixteen bits is the identity. -/
theorem prod_apply (x0 : FVec Ideal S1024x1024 .f32) (x1 : FVec Ideal S1000x1024 .f32) (p : Fin 1024) (q : Fin 1000) :
    matmul dot_S1024x1024_S1000x1024_S1024x1000_1_1_0_0_n_n none (truncf .bf16 x0 bitsLt_bf16_f32) (truncf .bf16 x1 bitsLt_bf16_f32)
        (constant S1024x1000 .f32 0x00000000#32) (ix2 p q)
      = rowDot x0 x1 p q := by
  simp only [matmul]
  rw [Ideal.matmul_constant_zero_apply, ← Equiv.sum_comp (contrEquiv1 dot_S1024x1024_S1000x1024_S1024x1000_1_1_0_0_n_n 1024 rfl rfl).symm]
  unfold rowDot
  refine Finset.sum_congr rfl fun k _ => ?_
  have hk := contrEquiv1_symm_val dot_S1024x1024_S1000x1024_S1024x1000_1_1_0_0_n_n 1024 rfl rfl k
  have el : dot_S1024x1024_S1000x1024_S1024x1000_1_1_0_0_n_n.lhsIdx (ix2 p q) ((contrEquiv1 dot_S1024x1024_S1000x1024_S1024x1000_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1000x1024_S1024x1000_1_1_0_0_n_n.rhsIdx (ix2 p q) ((contrEquiv1 dot_S1024x1024_S1000x1024_S1024x1000_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]
  rfl

/-! ## The stored value at an entry -/

/-- The body's stored value at `(p, q)`: the clipped expansion over the point's squared norm, the loaded norm of
    centre `q` and their inner product. -/
theorem stored_apply (x0 : Vec Ideal S1024x1024 .f32) (x1 : Vec Ideal S1000x1024 .f32) (x2 : Vec Ideal S1x1000 .f32)
    (p : Fin 1024) (q : Fin 1000) :
    k0_pay1 (F := Ideal) x0 x1 x2 (ix2 p q) = clipped (rowSq x0 p) (x2 (ix2 (0 : Fin 1) q)) (rowDot x0 x1 p q) := by
  unfold k0_pay1 clipped
  rw [← sqNormCol_apply x0 p q, ← normRow_apply x2 p q, ← prod_apply x0 x1 p q]
  rfl

end Cert.KernelIdeal.Body

end
-- ==== Proof.HostNorm.lean ====
/-
  What the kernel's third operand holds when the region starts. Before the region the program squares the centres,
  sums each row from zero, keeps the sums as a column and transposes the column into a row; so entry `(0, q)` of
  that row is `0 + Σₖ c[q,k]²`, the squared norm of centre `q`.
-/
import proofs.«151165_j22376779612174_1_alg».proof.Proof.Gen.KernelIdeal.Frame
import proofs.«151165_j22376779612174_1_alg».proof.Proof.Spec
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostNorm

open Cert.KernelIdeal Cert.KernelIdeal.Gen
open Idealize.ShloMosaic Idealize.ShloMosaic.TcCoe Idealize.ShloMosaic.ValueIdx Idealize.SL.Sem Idealize.ShloMosaic.StableHlo Cert.SqDist

/-- The transposed column of row sums of the squares, read at `(0, q)`, is the squared norm of row `q`. -/
theorem normRow_apply (a1 : FVec Ideal S1000x1024 .f32) (q : Fin 1000) :
    transpose S1x1000 [1, 0]
        (broadcastInDim S1000x1 ![0] bcast_S1000_S1000x1_0
          (Host.reduceAdd (mulf a1 a1) (constant (F := Ideal) S_ .f32 0x00000000#32) reducesTo_S1000x1024_S1000_d1 h_S_))
        transposes_S1000x1_S1x1000_1_0 (ix2 (0 : Fin 1) q)
      = rowSq a1 q := by
  refine (transpose_ix2_apply _ transposes_S1000x1_S1x1000_1_0 (0 : Fin 1) q).trans ?_
  refine (broadcastInDim_apply _ bcast_S1000_S1000x1_0 _ (ix2 q (0 : Fin 1)) (ix1 q) (fun a => match a with
    | ⟨0, _⟩ => by show q.val = if (1000 : Nat) = 1 then 0 else q.val; rw [if_neg (by decide)])).trans ?_
  simp only [Host.reduceAdd, Ideal.hostReduceAdd_def]
  rw [Ideal.hostReduceAdd_single reducesTo_S1000x1024_S1000_d1 (by decide)]
  refine (zero_word_add _).trans ?_
  unfold rowSq
  refine Finset.sum_congr rfl fun k _ => ?_
  exact congrArg (fun j => a1 j * a1 j) (funext fun a => Fin.ext (by match a with | ⟨0, _⟩ => rfl | ⟨1, _⟩ => rfl))

variable (m : (ℓ : Loc nD τ sig) → Buf (Elt Ideal) ℓ)

/-- The row of squared norms as the region finds it: the five host operations applied to the centres as launched. -/
theorem V_main_v3 (c : Dev nD) :
    (V m c main_v3 : S1x1000.Idx → EReal)
      = transpose S1x1000 [1, 0]
          (broadcastInDim S1000x1 ![0] bcast_S1000_S1000x1_0
            (Host.reduceAdd (mulf (m ((c : Thread nD τ).loc main_arg1)) (m ((c : Thread nD τ).loc main_arg1)))
              (constant (F := Ideal) S_ .f32 0x00000000#32) reducesTo_S1000x1024_S1000_d1 h_S_))
          transposes_S1000x1_S1x1000_1_0 := by
  dsimp only [V, hostOps0]
  after_results

/-- Entry `(0, q)` of that row is the squared norm of centre `q` of the launched centres. -/
theorem V_main_v3_apply (c : Dev nD) (q : Fin 1000) :
    (V m c main_v3 : S1x1000.Idx → EReal) (ix2 (0 : Fin 1) q) = rowSq (m ((c : Thread nD τ).loc main_arg1)) q := by
  rw [V_main_v3]
  exact normRow_apply _ q

end Cert.KernelIdeal.HostNorm

end
-- ==== Proof.Blocks.lean ====
/-
  From blocks to the whole array. The grid has 16 points; point `t` sees rows `1024·t … 1024·t + 1023` of the points,
  the whole centre array and the whole row of centre norms, and writes back rows `1024·t … 1024·t + 1023` of the
  result, all 1000 columns. What it writes back is those rows of the squared-distance array of the launched
  arguments: a point's squared norm and inner products only involve its own row, and the norm row it is given is
  the centres' squared norms. The 16 row bands cover the result, the band of row `r` being point `r / 1024`, so
  after the run the result array is the squared-distance array.
-/
import proofs.«151165_j22376779612174_1_alg».proof.Proof.Gen.KernelIdeal.Value
import proofs.«151165_j22376779612174_1_alg».proof.Proof.Payload
import proofs.«151165_j22376779612174_1_alg».proof.Proof.HostNorm

noncomputable section

namespace Cert.KernelIdeal.Blocks

open Cert.KernelIdeal Cert.KernelIdeal.Gen Cert.KernelIdeal.Value
open Idealize.ShloMosaic Idealize.ShloMosaic.TcCoe Idealize.ShloMosaic.ValueIdx Idealize.SL.Sem Cert.SqDist
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## The arrays as the region finds them and the blocks a point is given, at their literal types -/

abbrev pts (c : Dev nD) : Vec Ideal S16384x1024 .f32 := V m c main_arg0
abbrev ctr (c : Dev nD) : Vec Ideal S1000x1024 .f32 := V m c main_arg1
abbrev nrm (c : Dev nD) : Vec Ideal S1x1000 .f32 := V m c main_v3
abbrev ptsBlk (c : Dev nD) (t : Fin cfg0.N) : Vec Ideal S1024x1024 .f32 := iblk m c 0 t
abbrev ctrBlk (c : Dev nD) (t : Fin cfg0.N) : Vec Ideal S1000x1024 .f32 := iblk m c 1 t
abbrev nrmBlk (c : Dev nD) (t : Fin cfg0.N) : Vec Ideal S1x1000 .f32 := iblk m c 2 t

/-- The block indices, decided over the 16 points: the points' and the result's row band is the point's number, and
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the points' block at point `t` is row `r` of the points, when `r = 1024·t + p`. -/
theorem ptsBlk_apply (c : Dev nD) (t : Fin cfg0.N) (p : Fin 1024) (r : Fin 16384) (hr : r.val = t.val * 1024 + p.val)
    (k : Fin 1024) : ptsBlk m c t (ix2 p k) = pts m c (ix2 r k) := by
  obtain ⟨e00, e01, -, -, -, -, -, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- The centres' block is the whole centre array at every point. -/
theorem ctrBlk_apply (c : Dev nD) (t : Fin cfg0.N) (q : Fin 1000) (k : Fin 1024) :
    ctrBlk m c t (ix2 q k) = ctr m c (ix2 q k) := by
  obtain ⟨-, -, e10, e11, -, -, -, -⟩ := idx_facts t
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 1000 + 1 * q.val = q.val; omega
  | ⟨1, _⟩ => show win0_1.index t (1 : Fin 2) * 1024 + 1 * k.val = k.val; omega

/-- The norm row's block is the whole row at every point. -/
theorem nrmBlk_apply (c : Dev nD) (t : Fin cfg0.N) (q : Fin 1000) :
    nrmBlk m c t (ix2 (0 : Fin 1) q) = nrm m c (ix2 (0 : Fin 1) q) := by
  obtain ⟨-, -, -, -, e20, e21, -, -⟩ := idx_facts t
  show V m c main_v3 (((cfg0.win 2).blk t).view.emb (ix2 (0 : Fin 1) q)) = V m c main_v3 (ix2 (0 : Fin 1) q)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 1000 + 1 * q.val = q.val; omega

/-- What the body stores at `(p, q)` at point `t` is entry `(r, q)` of the squared-distance array of the arrays the
    region finds, `r = 1024·t + p`. -/
theorem stored_is_sqDist (c : Dev nD) (t : Fin cfg0.N) (p : Fin 1024) (q : Fin 1000) (r : Fin 16384)
    (hr : r.val = t.val * 1024 + p.val) :
    k0_pay1 (F := Ideal) (ptsBlk m c t) (ctrBlk m c t) (nrmBlk m c t) (ix2 p q)
      = sqDist (pts m c) (ctr m c) (ix2 r q) := by
  refine (Body.stored_apply (ptsBlk m c t) (ctrBlk m c t) (nrmBlk m c t) p q).trans ?_
  rw [sqDist_apply]
  have hA : rowSq (ptsBlk m c t) p = rowSq (pts m c) r := by
    unfold rowSq
    exact Finset.sum_congr rfl fun k _ => by rw [ptsBlk_apply m c t p r hr k]
  have hB : nrmBlk m c t (ix2 (0 : Fin 1) q) = rowSq (ctr m c) q := by
    rw [nrmBlk_apply m c t q]
    show (V m c main_v3 : S1x1000.Idx → EReal) (ix2 (0 : Fin 1) q) = rowSq (V m c main_arg1) q
    rw [HostNorm.V_main_v3_apply m c q, V_main_arg1 m c]
  have hC : rowDot (ptsBlk m c t) (ctrBlk m c t) p q = rowDot (pts m c) (ctr m c) r q := by
    unfold rowDot
    exact Finset.sum_congr rfl fun k _ => by rw [ptsBlk_apply m c t p r hr k, ctrBlk_apply m c t q k]
  rw [hA, hB, hC]

/-- The same at any index `j` of the block and any index `i` of the result with `i = (1024·t + j₀, j₁)`. -/
theorem stored_at (c : Dev nD) (t : Fin cfg0.N) (j : S1024x1000.Idx) (i : S16384x1000.Idx)
    (h0 : (i 0).val = t.val * 1024 + (j 0).val) (h1 : (i 1).val = (j 1).val) :
    k0_pay1 (F := Ideal) (ptsBlk m c t) (ctrBlk m c t) (nrmBlk m c t) j = sqDist (pts m c) (ctr m c) i := by
  obtain ⟨p, q, rfl⟩ : ∃ (p : Fin 1024) (q : Fin 1000), j = ix2 p q := ⟨j 0, j 1, eq_ix2 j⟩
  obtain ⟨r, s, rfl⟩ : ∃ (r : Fin 16384) (s : Fin 1000), i = ix2 r s := ⟨i 0, i 1, eq_ix2 i⟩
  have hs : s = q := Fin.ext h1
  subst hs
  exact stored_is_sqDist m c t p s r h0

/-- WHAT POINT `t` WRITES BACK is its row band of the squared-distance array. -/
theorem flushed_eq (c : Dev nD) (t : Fin cfg0.N) :
    (dats m 0 c).flushed 3 t
      = ((cfg0.win 3).blk t).view.read (Elt Ideal) (sqDist (V m c main_arg0) (V m c main_arg1)) := by
  rw [Value.flushed3]
  unfold out0_3
  rw [View.canon_unit_zero origin]
  simp only [View.ld_unit_zero (S := S1024x1024) origin, View.ld_unit_zero (S := S1000x1024) origin,
    View.ld_unit_zero (S := S1x1000) origin]
  obtain ⟨-, -, -, -, -, -, e30, e31⟩ := idx_facts t
  funext j
  show k0_pay1 (F := Ideal) (iblk m c 0 t) (iblk m c 1 t) (iblk m c 2 t) j
      = sqDist (V m c main_arg0) (V m c main_arg1) (((cfg0.win 3).blk t).view.emb j)
  refine stored_at m c t j (((cfg0.win 3).blk t).view.emb j) ?_ ?_
  · show win0_3.index t (0 : Fin 2) * 1024 + 1 * (j 0).val = t.val * 1024 + (j 0).val; omega
  · show win0_3.index t (1 : Fin 2) * 1000 + 1 * (j 1).val = (j 1).val; omega

/-- An index of the result is in point `t`'s block iff each coordinate is in the block's range on its axis. -/
theorem mem_blk (t : Fin cfg0.N) (i : S16384x1000.Idx) :
    i ∈ ((cfg0.win 3).blk t).view.set ↔ ∀ a : Fin 2, win0_3.index t a * S1024x1000.size a ≤ (i a).val ∧ (i a).val < win0_3.index t a * S1024x1000.size a + S1024x1000.size a := by
  show i ∈ ((View.whole main_v4).slice (win0_3.rect t)).set ↔ _
  rw [View.set_slice_whole, Rect.mem_set_unit]
  exact Iff.rfl

/-- Every entry of the result is in some point's block: row `r` is in the band of point `r / 1024`. -/
theorem cover (i : S16384x1000.Idx) :
    ∃ t : Fin cfg0.N, (cfg0.win 3).flush t = true ∧ i ∈ ((cfg0.win 3).blk t).view.set := by
  have hi0 : (i 0).val < 16384 := (i 0).isLt
  have hi1 : (i 1).val < 1000 := (i 1).isLt
  have hN : cfg0.N = 16 := N_0
  let t : Fin cfg0.N := ⟨(i 0).val / 1024, by rw [hN]; omega⟩
  have htv : t.val = (i 0).val / 1024 := rfl
  obtain ⟨-, -, -, -, -, -, e30, e31⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1000 ≤ (i 1).val ∧ (i 1).val < win0_3.index t (1 : Fin 2) * 1000 + 1000; omega

/-- THE RESULT ARRAY after the run is the squared-distance array of the launched arguments. -/
theorem final (c : Dev nD) :
    (dats m 0 c).arrAt 3 cfg0.N
      = sqDist (m ((c : Thread nD τ).loc main_arg0)) (m ((c : Thread nD τ).loc main_arg1)) := by
  rw [(dats m 0 c).arrAt_eq_of_cover 3 (sqDist (V m c main_arg0) (V m c main_arg1)) (fun t _ => flushed_eq m c t) cover,
    V_main_arg0 m c, V_main_arg1 m c]

/-- The kernel's run, read: the result at the squared-distance array of the arguments, the arguments unchanged. -/
theorem run : θ_run defs (onTc (τ := τ) (main (F := Ideal))) ⟨m, fun _ => 0, ρ⟩ fun r => ∀ c : Dev nD,
      r.2.mem ((c : Thread nD τ).loc main_v4)
        = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  Squared Euclidean distances between 16384 points and 1000 centres in 1024 dimensions, clipped at zero, by the
  expansion ‖x‖² + ‖c‖² − 2·⟨x, c⟩.

  The kernel computes the centres' squared norms on the host, then, one band of 1024 points at a time, the points'
  squared norms by a sum along the lanes, the inner products by one matrix product contracted over the feature axis
  of both operands (the operands narrowed to sixteen bits, which on extended reals is the identity), and stores
  `max ((‖x‖² + ‖c‖²) − 2·⟨x, c⟩) 0`. The reference forms the same three terms on whole arrays, the inner products
  against the transposed centres. On the extended reals both are the same function of the arguments, entry by entry:
  the same three finite sums combined in the same order with the same two literal words; the only law used besides
  re-indexing the sums is that a sum started from the zero word is the plain sum. No finiteness of the inputs is needed.

  The three frames are the generated ones (the reference's is its generated run with the result dropped); the idealized
  kernel is the kernel's own text read over the extended reals, so the idealization claim is trivial; the value claim sets the kernel's run, read block by
  block and then as one array, beside the reference's run, read one operation at a time.
-/
import proofs.«151165_j22376779612174_1_alg».proof.Defs
import proofs.«151165_j22376779612174_1_alg».proof.Proof.Gen.Kernel
import proofs.«151165_j22376779612174_1_alg».proof.Proof.Gen.Kernel.Skeleton
import proofs.«151165_j22376779612174_1_alg».proof.Proof.Gen.Kernel.Launch
import proofs.«151165_j22376779612174_1_alg».proof.Proof.Gen.Kernel.Points
import proofs.«151165_j22376779612174_1_alg».proof.Proof.Gen.Kernel.Frame
import proofs.«151165_j22376779612174_1_alg».proof.Proof.Gen.KernelIdeal
import proofs.«151165_j22376779612174_1_alg».proof.Proof.Gen.KernelIdeal.Skeleton
import proofs.«151165_j22376779612174_1_alg».proof.Proof.Gen.KernelIdeal.Launch
import proofs.«151165_j22376779612174_1_alg».proof.Proof.Gen.KernelIdeal.Points
import proofs.«151165_j22376779612174_1_alg».proof.Proof.Gen.KernelIdeal.Frame
import proofs.«151165_j22376779612174_1_alg».proof.Proof.Gen.ReferenceIdeal
import proofs.«151165_j22376779612174_1_alg».proof.Proof.Gen.KernelIdeal.Value
import proofs.«151165_j22376779612174_1_alg».proof.Proof.Gen.ReferenceIdeal.Run
import proofs.«151165_j22376779612174_1_alg».proof.Proof.Gen.ReferenceIdeal.Read
import proofs.«151165_j22376779612174_1_alg».proof.Proof.Gen.Pre_finite_inputs
import proofs.«151165_j22376779612174_1_alg».proof.Proof.Spec
import proofs.«151165_j22376779612174_1_alg».proof.Proof.RefIsSpec
import proofs.«151165_j22376779612174_1_alg».proof.Proof.Blocks
import Idealize.ShloMosaic.Adequacy
import Idealize.ShloMosaic.Init

noncomputable section

namespace Cert.Proof

open Idealize.ShloMosaic Idealize.ShloMosaic.TcCoe Idealize.SL.Sem Cert.SqDist

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the squared-distance array of the (agreeing) arguments. -/
theorem algebraic : Cert.algebraic_KernelIdeal_ReferenceIdeal := by
  intro m ρ m' ρ' _ hagree
  refine ⟨fun c => sqDist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_is_sqDist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
